-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32x64 : Shape := ⟨3, ![8192, 32, 64]⟩
abbrev S64x64 : Shape := ⟨2, ![64, 64]⟩
abbrev S64 : Shape := ⟨1, ![64]⟩
abbrev S_ : Shape := ⟨0, ![]⟩

class Facts : Prop where
  bcast_S_S8192x32x64 : S_.BroadcastsInDim S8192x32x64 (![] : Fin 0 → Fin S8192x32x64.rank)
  reducesTo_S8192x32x64_S_d0_1_2 : S8192x32x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x32x64 .f32) (main_arg1 : FVec F S64x64 .f32) (main_arg2 : FVec F S64 .f32) : IVec S_ 1 :=
  let main_v0 : FVec F S8192x32x64 .f32 := Host.absf main_arg0
  let main_cst : FVec F S_ .f32 := constant S_ .f32 0x7F800000#32
  let main_v1 : FVec F S8192x32x64 .f32 := broadcastInDim S8192x32x64 ![] bcast_S_S8192x32x64 main_cst
  let main_v2 : IVec S8192x32x64 1 := cmpf .olt main_v0 main_v1
  let main_c : IVec S_ 1 := constantI S_ 1 1#1
  let main_v3 : IVec S_ 1 := (fun x v => Host.reduce IntOp.andi x v reducesTo_S8192x32x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x32x64 : Shape := ⟨3, ![8192, 32, 64]⟩
abbrev S64x64 : Shape := ⟨2, ![64, 64]⟩
abbrev S64 : Shape := ⟨1, ![64]⟩
abbrev S32x64x8192 : Shape := ⟨3, ![32, 64, 8192]⟩
abbrev S64x1 : Shape := ⟨2, ![64, 1]⟩
abbrev S2x64x8192 : Shape := ⟨3, ![2, 64, 8192]⟩
abbrev S1x64x8192 : Shape := ⟨3, ![1, 64, 8192]⟩
abbrev S64x8192 : Shape := ⟨2, ![64, 8192]⟩

abbrev nBuf : Space → Nat
  | .hbm => 8
  | .vmem => 6
  | .smem => 0
  | _ => 0

abbrev bufTy : (tb : Table) → Fin (tcTables nBuf tb) → BufTy
  | .hbm, ⟨0, _⟩ => ⟨S8192x32x64, .f32⟩
  | .hbm, ⟨1, _⟩ => ⟨S64x64, .f32⟩
  | .hbm, ⟨2, _⟩ => ⟨S64, .f32⟩
  | .hbm, ⟨3, _⟩ => ⟨S32x64x8192, .f32⟩
  | .hbm, ⟨4, _⟩ => ⟨S64x64, .bf16⟩
  | .hbm, ⟨5, _⟩ => ⟨S64x1, .f32⟩
  | .hbm, ⟨6, _⟩ => ⟨S32x64x8192, .f32⟩
  | .hbm, ⟨7, _⟩ => ⟨S8192x32x64, .f32⟩
  | .local _ .vmem, ⟨0, _⟩ => ⟨S2x64x8192, .f32⟩
  | .local _ .vmem, ⟨1, _⟩ => ⟨S2x64x8192, .f32⟩
  | .local _ .vmem, ⟨2, _⟩ => ⟨S64x64, .bf16⟩
  | .local _ .vmem, ⟨3, _⟩ => ⟨S64x1, .f32⟩
  | .local _ .vmem, ⟨4, _⟩ => ⟨S2x64x8192, .f32⟩
  | .local _ .vmem, ⟨5, _⟩ => ⟨S2x64x8192, .f32⟩
  | _, _ => ⟨S8192x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x64x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S8192x32x64_S32x64x8192_1_2_0 : S8192x32x64.Transposes [1, 2, 0] S32x64x8192
  bitsLt_bf16_f32 : FTy.bits .bf16 < FTy.bits .f32
  shapeCasts_S64_S64x1 : S64.ShapeCasts S64x1
  inb_S2x64x8192_S1x64x8192_0_0_0 : ∀ a, (![0, 0, 0] : Fin 3 → Nat) a + S1x64x8192.size a ≤ S2x64x8192.size a
  h_S1x64x8192 : 0 < S1x64x8192.numel
  shapeCasts_S1x64x8192_S64x8192 : S1x64x8192.ShapeCasts S64x8192
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  shapeCasts_S64x8192_S1x64x8192 : S64x8192.ShapeCasts S1x64x8192
  inb_S2x64x8192_S1x64x8192_1_0_0 : ∀ a, (![1, 0, 0] : Fin 3 → Nat) a + S1x64x8192.size a ≤ S2x64x8192.size a
  transposes_S32x64x8192_S8192x32x64_2_0_1 : S32x64x8192.Transposes [2, 0, 1] S8192x32x64
  dot_S64x64_S64x8192_S64x8192_1_0_0_1_n_n_wf : DotDims.WF S64x64 S64x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x8192.size a ≤ S32x64x8192.size a
  hwx0_0 : ∀ i : grid0.Coords, EltTy.bits .f32 = 32 ∨ (Rect.block (s := S32x64x8192) S2x64x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x64x8192.size a ≤ S32x64x8192.size a
  hwx0_3 : ∀ i : grid0.Coords, EltTy.bits .f32 = 32 ∨ (Rect.block (s := S32x64x8192) S2x64x8192.size (cc0_transform_3 i) (hinb0_3 i)).WholeWords (EltTy.packing .f32)

variable [Facts₀]

def dot_S64x64_S64x8192_S64x8192_1_0_0_1_n_n : DotDims S64x64 S64x8192 S64x8192 where
  lhsContracting := [1]
  rhsContracting := [0]
  lhsNonContracting := [0]
  rhsNonContracting := [1]
  lhsBatch := []
  rhsBatch := []
  wf := dot_S64x64_S64x8192_S64x8192_1_0_0_1_n_n_wf

abbrev win0_0 : Pipeline.Window sig grid0 :=
  Pipeline.Window.ofSpec (Memref.whole main_v0) S2x64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2x64x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x32x64 : Shape := ⟨3, ![8192, 32, 64]⟩
abbrev S64x64 : Shape := ⟨2, ![64, 64]⟩
abbrev S64 : Shape := ⟨1, ![64]⟩
abbrev S262144x64 : Shape := ⟨2, ![262144, 64]⟩
abbrev S131072x128 : Shape := ⟨2, ![131072, 128]⟩
abbrev S_ : Shape := ⟨0, ![]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S1024x128 : Shape := ⟨2, ![1024, 128]⟩

abbrev nBuf : Space → Nat
  | .hbm => 16
  | .vmem => 6
  | .smem => 0
  | _ => 0

abbrev bufTy : (tb : Table) → Fin (tcTables nBuf tb) → BufTy
  | .hbm, ⟨0, _⟩ => ⟨S8192x32x64, .f32⟩
  | .hbm, ⟨1, _⟩ => ⟨S64x64, .f32⟩
  | .hbm, ⟨2, _⟩ => ⟨S64, .f32⟩
  | .hbm, ⟨3, _⟩ => ⟨S262144x64, .f32⟩
  | .hbm, ⟨4, _⟩ => ⟨S131072x128, .f32⟩
  | .hbm, ⟨5, _⟩ => ⟨S64x64, .f32⟩
  | .hbm, ⟨6, _⟩ => ⟨S_, .f32⟩
  | .hbm, ⟨7, _⟩ => ⟨S64x64, .f32⟩
  | .hbm, ⟨8, _⟩ => ⟨S64x128, .f32⟩
  | .hbm, ⟨9, _⟩ => ⟨S64x128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S131072x128, .f32⟩
  | .hbm, ⟨14, _⟩ => ⟨S262144x64, .f32⟩
  | .hbm, ⟨15, _⟩ => ⟨S8192x32x64, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S8192x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x32x64_S262144x64 : S8192x32x64.ShapeCasts S262144x64
  shapeCasts_S262144x64_S131072x128 : S262144x64.ShapeCasts S131072x128
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S131072x128_S262144x64 : S131072x128.ShapeCasts S262144x64
  shapeCasts_S262144x64_S8192x32x64 : S262144x64.ShapeCasts S8192x32x64
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S131072x128.size a
  hwx0_3 : ∀ i : grid0.Coords, EltTy.bits .f32 = 32 ∨ (Rect.block (s := S131072x128) S1024x128.size (cc0_transform_3 i) (hinb0_3 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.KernelPlane.lean ====
/-
  One plane of the kernel's block, read at an index.

  The body takes a [64, 8192] plane `X` of its input block (a [1, 64, 8192] slab with the unit axis cast away),
  multiplies the [64, 64] weights `W` into it from the left, and adds the bias column `b` broadcast along the lanes;
  the result goes back as a [1, 64, 8192] slab. At row `o` and lane `l` the stored value is
  `∑ d, W[o, d] · X[d, l] + b[o]`: the narrowing of `X` to bf16 is the identity on extended reals, the product
  accumulates from the zero plane, and the sum runs over the one contracted axis.
-/
import proofs.«147220_g2000303496618400_pallasbulk_434_8_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Plane

open Idealize.ShloMosaic Idealize.ShloMosaic.ValueIdx Cert.KernelIdeal Cert.KernelIdeal.Gen

/-! ## The operand indices of the product `W · X`, axis by axis -/

/-- The weights are read on their row axis at the output's row. -/
theorem lhs_axis0 (i : S64x8192.Idx) (q : dot_S64x64_S64x8192_S64x8192_1_0_0_1_n_n.contr.Idx) :
    (dot_S64x64_S64x8192_S64x8192_1_0_0_1_n_n.lhsIdx i q 0).val = (i 0).val := by
  unfold DotDims.lhsIdx
  rw [dif_neg (show ¬(0 : Fin S64x64.rank) ∈ dot_S64x64_S64x8192_S64x8192_1_0_0_1_n_n.lhsBatch by decide),
    dif_pos (show (0 : Fin S64x64.rank) ∈ dot_S64x64_S64x8192_S64x8192_1_0_0_1_n_n.lhsNonContracting by decide)]
  rfl

/-- The weights are read on their column axis at the summation index. -/
theorem lhs_axis1 (i : S64x8192.Idx) (q : dot_S64x64_S64x8192_S64x8192_1_0_0_1_n_n.contr.Idx) :
    (dot_S64x64_S64x8192_S64x8192_1_0_0_1_n_n.lhsIdx i q 1).val = (q ⟨0, by decide⟩).val :=
  dot_S64x64_S64x8192_S64x8192_1_0_0_1_n_n.lhsIdx_val_of_single rfl i q

/-- The plane is read on its row axis at the summation index. -/
theorem rhs_axis0 (i : S64x8192.Idx) (q : dot_S64x64_S64x8192_S64x8192_1_0_0_1_n_n.contr.Idx) :
    (dot_S64x64_S64x8192_S64x8192_1_0_0_1_n_n.rhsIdx i q 0).val = (q ⟨0, by decide⟩).val :=
  dot_S64x64_S64x8192_S64x8192_1_0_0_1_n_n.rhsIdx_val_of_single rfl i q

/-- The plane is read on its lane axis at the output's lane. -/
theorem rhs_axis1 (i : S64x8192.Idx) (q : dot_S64x64_S64x8192_S64x8192_1_0_0_1_n_n.contr.Idx) :
    (dot_S64x64_S64x8192_S64x8192_1_0_0_1_n_n.rhsIdx i q 1).val = (i 1).val := by
  unfold DotDims.rhsIdx
  rw [dif_neg (show ¬(1 : Fin S64x8192.rank) ∈ dot_S64x64_S64x8192_S64x8192_1_0_0_1_n_n.rhsBatch by decide),
    dif_pos (show (1 : Fin S64x8192.rank) ∈ dot_S64x64_S64x8192_S64x8192_1_0_0_1_n_n.rhsNonContracting by decide)]
  rfl

/-! ## The product into the zero plane -/

/-- `W · X` accumulated from zero, at row `o` and lane `l`: the sum over the 64 input features of
    `W[o, d] · X[d, l]`. -/
theorem product_at (W : FVec Ideal S64x64 .bf16) (X : FVec Ideal S64x8192 .bf16) (o : Fin 64) (l : Fin 8192) :
    matmul dot_S64x64_S64x8192_S64x8192_1_0_0_1_n_n none W X (constant (F := Ideal) S64x8192 .f32 0x00000000#32) (ix2 o l)
      = ∑ d : Fin 64, W (ix2 o d) * X (ix2 d l) := by
  simp only [matmul]
  rw [Ideal.matmul_constant_zero_apply,
    ← Equiv.sum_comp (contrEquiv1 dot_S64x64_S64x8192_S64x8192_1_0_0_1_n_n 64 rfl rfl).symm]
  refine Finset.sum_congr rfl fun k _ => ?_
  have hk := contrEquiv1_symm_val dot_S64x64_S64x8192_S64x8192_1_0_0_1_n_n 64 rfl rfl k
  have el : dot_S64x64_S64x8192_S64x8192_1_0_0_1_n_n.lhsIdx (ix2 o l)
      ((contrEquiv1 dot_S64x64_S64x8192_S64x8192_1_0_0_1_n_n 64 rfl rfl).symm k) = ix2 o k :=
    funext fun a => Fin.ext (by
      match a with
      | ⟨0, _⟩ => exact lhs_axis0 _ _
      | ⟨1, _⟩ => exact (lhs_axis1 _ _).trans hk)
  have er : dot_S64x64_S64x8192_S64x8192_1_0_0_1_n_n.rhsIdx (ix2 o l)
      ((contrEquiv1 dot_S64x64_S64x8192_S64x8192_1_0_0_1_n_n 64 rfl rfl).symm k) = ix2 k l :=
    funext fun a => Fin.ext (by
      match a with
      | ⟨0, _⟩ => exact (rhs_axis0 _ _).trans hk
      | ⟨1, _⟩ => exact rhs_axis1 _ _)
  rw [el, er]

/-! ## The stored slab at an index -/

/-- The slab's unit axis carries no position: (u, a, l) of the slab is (a, l) of its plane. -/
theorem slab_pos (u : Fin 1) (a : Fin 64) (l : Fin 8192) :
    (S1x64x8192.rowMajor (ix3 u a l)).val = (S64x8192.rowMajor (ix2 a l)).val := by
  rw [Shape.rowMajor_val_three, Shape.rowMajor_val_two]
  show ((u : ℕ) * 64 + (a : ℕ)) * 8192 + (l : ℕ) = (a : ℕ) * 8192 + (l : ℕ)
  have := u.isLt
  omega

/-- What the body stores for a slab, at (u, o, l): `∑ d, W[o, d] · X[u, d, l] + b[o, 0]`. -/
theorem stored_at (x0 : Vec Ideal S1x64x8192 .f32) (wv : Vec Ideal S64x64 .bf16) (bv : Vec Ideal S64x1 .f32)
    (u : Fin 1) (o : Fin 64) (l : Fin 8192) :
    k0_pay1 (F := Ideal) x0 wv bv (ix3 u o l)
      = (∑ d : Fin 64, wv (ix2 o d) * x0 (ix3 u d l)) + bv (ix2 o (0 : Fin 1)) := by
  unfold k0_pay1
  refine (shapeCast_apply _ _ (ix3 u o l) (ix2 o l) (slab_pos u o l).symm).trans ?_
  rw [addf_apply, product_at]
  simp only [shapeCast_self]
  congr 1
  · refine Finset.sum_congr rfl fun d _ => ?_
    congr 1
    exact shapeCast_apply x0 _ (ix2 d l) (ix3 u d l) (slab_pos u d l)
  · refine broadcastTo_apply bv _ (ix2 o l) (ix2 o (0 : Fin 1)) fun a => ?_
    match a with
    | ⟨0, _⟩ => rfl
    | ⟨1, _⟩ => rfl

/-- The body's second stored slab is the same function of its reads as the first. -/
theorem second_eq_first (x : Vec Ideal S1x64x8192 .f32) (wv : Vec Ideal S64x64 .bf16) (bv : Vec Ideal S64x1 .f32) :
    k0_pay2 (F := Ideal) x wv bv = k0_pay1 (F := Ideal) x wv bv := rfl

end Cert.KernelIdeal.Plane

end
-- ==== Proof.KernelBlock.lean ====
/-
  The block the body leaves, as one function of the blocks it reads.

  A grid point's output block is [2, 64, 8192]: two planes, each stored by its own whole-slab store, the second at
  plane offset 1 and the first at plane offset 0, both computed by the same formula from the matching plane of the
  input block, the whole weights and the whole bias column. So at (p, o, l) the block holds
  `∑ d, W[o, d] · X[p, d, l] + b[o, 0]`, whichever store wrote it; the two slabs tile the block.
-/
import proofs.«147220_g2000303496618400_pallasbulk_434_8_alg».proof.Proof.Gen.KernelIdeal.Frame
import proofs.«147220_g2000303496618400_pallasbulk_434_8_alg».proof.Proof.KernelPlane

noncomputable section

namespace Cert.KernelIdeal.Block

open Idealize.ShloMosaic Idealize.ShloMosaic.ValueIdx Cert.KernelIdeal Cert.KernelIdeal.Gen Cert.KernelIdeal.Plane

/-- One element of the block the body leaves: plane `p`, row `o`, lane `l`. -/
def blockAt (x0 : Vec Ideal S2x64x8192 .f32) (x1 : Vec Ideal S64x64 .bf16) (x2 : Vec Ideal S64x1 .f32)
    (p : Fin 2) (o : Fin 64) (l : Fin 8192) : EReal :=
  (∑ d : Fin 64, x1 (ix2 o d) * x0 (ix3 p d l)) + x2 (ix2 o (0 : Fin 1))

theorem zeros2 : (![0, 0] : Fin 2 → Nat) = fun _ => 0 := funext fun a => by fin_cases a <;> rfl

/-- The weights are loaded whole. -/
theorem whole_weights (x1 : Vec Ideal S64x64 .bf16) : View.ld x1 r0_1 = x1 :=
  View.ld_unit_zero (S := S64x64) zeros2 _ x1

/-- The bias column is loaded whole. -/
theorem whole_bias (x2 : Vec Ideal S64x1 .f32) : View.ld x2 r0_2 = x2 :=
  View.ld_unit_zero (S := S64x1) zeros2 _ x2

/-- The two stores together leave `blockAt` at every index of the block. -/
theorem out_eq (x0 : Vec Ideal S2x64x8192 .f32) (x1 : Vec Ideal S64x64 .bf16) (x2 : Vec Ideal S64x1 .f32) :
    out0_3 (F := Ideal) x0 x1 x2 = fun y => blockAt x0 x1 x2 (y 0) (y 1) (y 2) := by
  funext y
  unfold out0_3
  refine View.canon_apply_of_pieces (Val := Elt Ideal) (fun y => blockAt x0 x1 x2 (y 0) (y 1) (y 2)) _
    (fun p hp x => ?_) y (cover0_3 _ _ y)
  simp only [List.mem_cons, List.mem_nil_iff, or_false] at hp
  rcases hp with rfl | rfl
  · -- the plane at offset 1
    obtain ⟨u, o, l, rfl⟩ : ∃ (u : Fin 1) (o : Fin 64) (l : Fin 8192), x = ix3 u o l := ⟨x 0, x 1, x 2, eq_ix3 x⟩
    show k0_pay2 (View.ld x0 r0_3) (View.ld x1 r0_1) (View.ld x2 r0_2) (ix3 u o l) = _
    rw [second_eq_first, stored_at, whole_weights, whole_bias]
    have h1 : r0_3.emb (ix3 u o l) 1 = o := Fin.ext (by show 0 + 1 * (o : ℕ) = o; omega)
    have h2 : r0_3.emb (ix3 u o l) 2 = l := Fin.ext (by show 0 + 1 * (l : ℕ) = l; omega)
    have h0 : ∀ d : Fin 64, r0_3.idx (ix3 u d l) = ix3 (r0_3.emb (ix3 u o l) 0) d l := fun d =>
      funext fun a => Fin.ext (by
        match a with
        | ⟨0, _⟩ => rfl
        | ⟨1, _⟩ => show 0 + 1 * (d : ℕ) = d; omega
        | ⟨2, _⟩ => show 0 + 1 * (l : ℕ) = l; omega)
    show _ = blockAt x0 x1 x2 (r0_3.emb (ix3 u o l) 0) (r0_3.emb (ix3 u o l) 1) (r0_3.emb (ix3 u o l) 2)
    rw [h1, h2]
    unfold blockAt
    simp only [View.ld, h0]
    rfl
  · -- the plane at offset 0
    obtain ⟨u, o, l, rfl⟩ : ∃ (u : Fin 1) (o : Fin 64) (l : Fin 8192), x = ix3 u o l := ⟨x 0, x 1, x 2, eq_ix3 x⟩
    show k0_pay1 (View.ld x0 r0_0) (View.ld x1 r0_1) (View.ld x2 r0_2) (ix3 u o l) = _
    rw [stored_at, whole_weights, whole_bias]
    have h1 : r0_0.emb (ix3 u o l) 1 = o := Fin.ext (by show 0 + 1 * (o : ℕ) = o; omega)
    have h2 : r0_0.emb (ix3 u o l) 2 = l := Fin.ext (by show 0 + 1 * (l : ℕ) = l; omega)
    have h0 : ∀ d : Fin 64, r0_0.idx (ix3 u d l) = ix3 (r0_0.emb (ix3 u o l) 0) d l := fun d =>
      funext fun a => Fin.ext (by
        match a with
        | ⟨0, _⟩ => rfl
        | ⟨1, _⟩ => show 0 + 1 * (d : ℕ) = d; omega
        | ⟨2, _⟩ => show 0 + 1 * (l : ℕ) = l; omega)
    show _ = blockAt x0 x1 x2 (r0_0.emb (ix3 u o l) 0) (r0_0.emb (ix3 u o l) 1) (r0_0.emb (ix3 u o l) 2)
    rw [h1, h2]
    unfold blockAt
    simp only [View.ld, h0]
    rfl

end Cert.KernelIdeal.Block

end
-- ==== Proof.Affine.lean ====
/-
  The function both programs compute: a 64 → 64 linear layer applied along the last axis.

  For an input `x` of shape [8192, 32, 64], weights `w` of shape [64, 64] laid out [output feature, input feature] and a
  bias `b` of shape [64], the result at batch `n`, position `s` and output feature `o` is
  `∑ d, w[o, d] · x[n, s, d] + b[o]`, over the extended reals.
-/
import Idealize.ShloMosaic.Lib.ValueIdx

noncomputable section

namespace Cert.Affine

open Idealize.ShloMosaic Idealize.ShloMosaic.ValueIdx

/-- The layer's result at (n, s, o). -/
def linearAt (x : (⟨3, ![8192, 32, 64]⟩ : Shape).Idx → EReal) (w : (⟨2, ![64, 64]⟩ : Shape).Idx → EReal)
    (b : (⟨1, ![64]⟩ : Shape).Idx → EReal) (n : Fin 8192) (s : Fin 32) (o : Fin 64) : EReal :=
  (∑ d : Fin 64, w (ix2 o d) * x (ix3 n s d)) + b (ix1 o)

/-- The layer's result as one array. -/
def linear (x : (⟨3, ![8192, 32, 64]⟩ : Shape).Idx → EReal) (w : (⟨2, ![64, 64]⟩ : Shape).Idx → EReal)
    (b : (⟨1, ![64]⟩ : Shape).Idx → EReal) : (⟨3, ![8192, 32, 64]⟩ : Shape).Idx → EReal :=
  fun i => linearAt x w b (i 0) (i 1) (i 2)

end Cert.Affine

end
-- ==== Proof.KernelArray.lean ====
/-
  The kernel's result as one function of its arguments.

  Before the region the input is transposed to [position, feature, batch], the weights are narrowed (the identity on
  extended reals) and the bias is reshaped to a column. The grid walks the 32 positions two at a time: point `t`
  reads planes `2t` and `2t + 1` of the transposed input, the whole weights and the whole bias column, and writes back
  the same two planes of the output. So every output index is covered by exactly the point handling its pair of
  planes, and the region's array ends holding, at (s, o, n), `∑ d, w[o, d] · x[n, s, d] + b[o]`. The one line after the
  region transposes that back to [batch, position, feature], which is the layer's result.
-/
import proofs.«147220_g2000303496618400_pallasbulk_434_8_alg».proof.Proof.Gen.KernelIdeal.Frame
import proofs.«147220_g2000303496618400_pallasbulk_434_8_alg».proof.Proof.KernelBlock
import proofs.«147220_g2000303496618400_pallasbulk_434_8_alg».proof.Proof.Affine
import Idealize.ShloMosaic.Lib.Pipeline.Value
import Idealize.ShloMosaic.Lib.StableHlo.Run
import Idealize.ShloMosaic.Lib.Tactic

noncomputable section

namespace Cert.KernelIdeal.Arr

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Block

variable (m : (ℓ : Loc nD τ sig) → Buf (Elt Ideal) ℓ) (ρ : Dev nD → PrngReg)

/-- The region finds the input transposed to [position, feature, batch]. -/
theorem entry_input (c : Dev nD) :
    (V m c main_v0 : S32x64x8192.Idx → EReal)
      = transpose S32x64x8192 [1, 2, 0] (m ((c : Thread nD τ).loc main_arg0)) transposes_S8192x32x64_S32x64x8192_1_2_0 := by
  show StableHlo.after hostOps0 (fun b => m (c, b)) (Proc.devRef .tc main_v0) = _
  after_results

/-- It finds the weights narrowed, which on extended reals changes nothing. -/
theorem entry_weights (c : Dev nD) :
    (V m c main_v1 : S64x64.Idx → EReal) = m ((c : Thread nD τ).loc main_arg1) := by
  show StableHlo.after hostOps0 (fun b => m (c, b)) (Proc.devRef .tc main_v1) = _
  after_results
  rfl

/-- It finds the bias as a column. -/
theorem entry_bias (c : Dev nD) :
    (V m c main_v2 : S64x1.Idx → EReal) = shapeCast S64x1 (m ((c : Thread nD τ).loc main_arg2)) shapeCasts_S64_S64x1 := by
  show StableHlo.after hostOps0 (fun b => m (c, b)) (Proc.devRef .tc main_v2) = _
  after_results
  rfl

/-- The index maps over the grid: the input and output blocks are pair `t` of planes, the weights and bias whole. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The windows' blocks as pieces of their arrays -/

/-- The input block at point `t` is planes `2t` and `2t + 1` of the transposed input. -/
theorem input_block (c : Dev nD) (t : Fin cfg0.N) (p : Fin 2) (d : Fin 64) (l : Fin 8192) (k : S32x64x8192.Idx)
    (hk0 : (k 0).val = 2 * t.val + p.val) (hk1 : (k 1).val = d.val) (hk2 : (k 2).val = l.val) :
    (iblk m c 0 t : Vec Ideal S2x64x8192 .f32) (ix3 p d l) = (V m c main_v0 : S32x64x8192.Idx → EReal) k := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 2 + 1 * p.val = (k 0).val; rw [e0, hk0]; omega
  | ⟨1, _⟩ => show win0_0.index t (1 : Fin 3) * 64 + 1 * d.val = (k 1).val; rw [e1, hk1]; omega
  | ⟨2, _⟩ => show win0_0.index t (2 : Fin 3) * 8192 + 1 * l.val = (k 2).val; rw [e2, hk2]; omega

/-- The weights' block is the whole array at every point. -/
theorem weights_block (c : Dev nD) (t : Fin cfg0.N) (o d : Fin 64) :
    (iblk m c 1 t : Vec Ideal S64x64 .bf16) (ix2 o d) = (V m c main_v1 : S64x64.Idx → EReal) (ix2 o d) := by
  obtain ⟨-, -, -, -, -, -, e0, e1, -⟩ := idx_facts t
  unfold iblk
  rw [View.read_apply]
  show V m c main_v1 _ = V m c main_v1 _
  congr 1
  funext a
  apply Fin.ext
  match a with
  | ⟨0, _⟩ => show win0_1.index t (0 : Fin 2) * 64 + 1 * o.val = o.val; rw [e0]; omega
  | ⟨1, _⟩ => show win0_1.index t (1 : Fin 2) * 64 + 1 * d.val = d.val; rw [e1]; omega

/-- The bias column's block is the whole column at every point. -/
theorem bias_block (c : Dev nD) (t : Fin cfg0.N) (o : Fin 64) (z : Fin 1) :
    (iblk m c 2 t : Vec Ideal S64x1 .f32) (ix2 o z) = (V m c main_v2 : S64x1.Idx → EReal) (ix2 o z) := by
  obtain ⟨-, -, -, -, -, -, -, -, e0, e1⟩ := idx_facts t
  unfold iblk
  rw [View.read_apply]
  show V m c main_v2 _ = V m c main_v2 _
  congr 1
  funext a
  apply Fin.ext
  match a with
  | ⟨0, _⟩ => show win0_2.index t (0 : Fin 2) * 64 + 1 * o.val = o.val; rw [e0]; omega
  | ⟨1, _⟩ => show win0_2.index t (1 : Fin 2) * 1 + 1 * z.val = z.val; rw [e1]; omega

/-! ## The arrays the region finds, read at an index -/

/-- The transposed input at (s, d, n) is the input at (n, s, d). -/
theorem entry_input_at (c : Dev nD) (s : Fin 32) (d : Fin 64) (n : Fin 8192) :
    (V m c main_v0 : S32x64x8192.Idx → EReal) (ix3 s d n)
      = (m ((c : Thread nD τ).loc main_arg0) : S8192x32x64.Idx → EReal) (ix3 n s d) := by
  rw [entry_input]
  refine transpose_apply _ _ _ (ix3 s d n) (ix3 n s d) fun b => ?_
  match b with
  | ⟨0, _⟩ => rfl
  | ⟨1, _⟩ => rfl
  | ⟨2, _⟩ => rfl

/-- The bias column at (o, 0) is the bias at o. -/
theorem entry_bias_at (c : Dev nD) (o : Fin 64) (z : Fin 1) :
    (V m c main_v2 : S64x1.Idx → EReal) (ix2 o z) = (m ((c : Thread nD τ).loc main_arg2) : S64.Idx → EReal) (ix1 o) := by
  rw [entry_bias]
  refine shapeCast_apply _ _ (ix2 o z) (ix1 o) ?_
  rw [Shape.rowMajor_val_one, Shape.rowMajor_val_two]
  show (o : ℕ) = (o : ℕ) * 1 + (z : ℕ)
  have := z.isLt
  omega

/-! ## What a grid point writes back -/

/-- Element (p, o, l) of the block point `t` leaves is the layer's result at batch `l`, position `2t + p`, feature `o`. -/
theorem point_elem (c : Dev nD) (t : Fin cfg0.N) (p : Fin 2) (o : Fin 64) (l : Fin 8192) (s : Fin 32)
    (hs : s.val = 2 * t.val + p.val) :
    blockAt (iblk m c 0 t) (iblk m c 1 t) (iblk m c 2 t) p o l
      = Cert.Affine.linearAt (m ((c : Thread nD τ).loc main_arg0)) (m ((c : Thread nD τ).loc main_arg1))
          (m ((c : Thread nD τ).loc main_arg2)) l s o := by
  unfold blockAt Cert.Affine.linearAt
  congr 1
  · refine Finset.sum_congr rfl fun d _ => ?_
    congr 1
    · rw [weights_block m c t o d, entry_weights]
    · rw [input_block m c t p d l (ix3 s d l) hs rfl rfl, entry_input_at]
  · rw [bias_block m c t o 0, entry_bias_at]

/-- What the region's array ends holding: the layer's result laid out [position, feature, batch]. -/
def channelsFirst (x : S8192x32x64.Idx → EReal) (w : S64x64.Idx → EReal) (b : S64.Idx → EReal) : S32x64x8192.Idx → EReal :=
  fun i => Cert.Affine.linearAt x w b (i 2) (i 0) (i 1)

/-- What point `t` writes back is its block of that array. -/
theorem flushed_eq (c : Dev nD) (t : Fin cfg0.N) :
    (dats m 0 c).flushed 3 t = ((cfg0.win 3).blk t).view.read (Elt Ideal) (channelsFirst (m ((c : Thread nD τ).loc main_arg0)) (m ((c : Thread nD τ).loc main_arg1)) (m ((c : Thread nD τ).loc main_arg2))) := by
  show (cfg0.win 3).cut (grid0.coords t) ((dats m 0 c).after 3 t) = _
  rw [after0_3, out_eq]
  obtain ⟨-, -, -, e0, e1, e2, -⟩ := idx_facts t
  have ht : t.val < 16 := lt_of_lt_of_eq t.isLt N_0
  funext j
  have hj0 : (j 0).val < 2 := (j 0).isLt
  have hj1 : (j 1).val < 64 := (j 1).isLt
  have hj2 : (j 2).val < 8192 := (j 2).isLt
  have h0 : ((cfg0.win 3).blk t).view.emb j 0 = (⟨2 * t.val + (j 0).val, by omega⟩ : Fin 32) :=
    Fin.ext (by show win0_3.index t (0 : Fin 3) * 2 + 1 * (j 0).val = 2 * t.val + (j 0).val; rw [e0]; omega)
  have h1 : ((cfg0.win 3).blk t).view.emb j 1 = (⟨(j 1).val, hj1⟩ : Fin 64) :=
    Fin.ext (by show win0_3.index t (1 : Fin 3) * 64 + 1 * (j 1).val = (j 1).val; rw [e1]; omega)
  have h2 : ((cfg0.win 3).blk t).view.emb j 2 = (⟨(j 2).val, hj2⟩ : Fin 8192) :=
    Fin.ext (by show win0_3.index t (2 : Fin 3) * 8192 + 1 * (j 2).val = (j 2).val; rw [e2]; omega)
  show blockAt (iblk m c 0 t) (iblk m c 1 t) (iblk m c 2 t) (j 0) (j 1) (j 2)
    = Cert.Affine.linearAt (m ((c : Thread nD τ).loc main_arg0)) (m ((c : Thread nD τ).loc main_arg1)) (m ((c : Thread nD τ).loc main_arg2)) (((cfg0.win 3).blk t).view.emb j 2) (((cfg0.win 3).blk t).view.emb j 0) (((cfg0.win 3).blk t).view.emb j 1)
  rw [h0, h1, h2]
  exact point_elem m c t (j 0) (j 1) (j 2) ⟨2 * t.val + (j 0).val, by omega⟩ rfl

/-- An index is in point `t`'s output block iff each coordinate is in the block's range on its axis. -/
theorem mem_block (t : Fin cfg0.N) (i : S32x64x8192.Idx) :
    i ∈ ((cfg0.win 3).blk t).view.set ↔ ∀ a : Fin 3, win0_3.index t a * S2x64x8192.size a ≤ (i a).val ∧ (i a).val < win0_3.index t a * S2x64x8192.size a + S2x64x8192.size a := by
  show i ∈ ((View.whole main_v3).slice (win0_3.rect t)).set ↔ _
  rw [View.set_slice_whole, Rect.mem_set_unit]
  exact Iff.rfl

/-- Every index of the array lies in the block of the point that handles its pair of planes. -/
theorem covered (i : S32x64x8192.Idx) :
    ∃ t : Fin cfg0.N, (cfg0.win 3).flush t = true ∧ i ∈ ((cfg0.win 3).blk t).view.set := by
  have hi0 : (i 0).val < 32 := (i 0).isLt
  have hi1 : (i 1).val < 64 := (i 1).isLt
  have hi2 : (i 2).val < 8192 := (i 2).isLt
  have hN : cfg0.N = 16 := N_0
  obtain ⟨t, ht⟩ : ∃ t : Fin cfg0.N, t.val = (i 0).val / 2 := ⟨⟨(i 0).val / 2, by rw [hN]; omega⟩, rfl⟩
  obtain ⟨-, -, -, e0, e1, e2, -⟩ := idx_facts t
  refine ⟨t, flush0_3 t, ?_⟩
  rw [mem_block]
  intro a
  match a with
  | ⟨0, _⟩ => show win0_3.index t (0 : Fin 3) * 2 ≤ (i 0).val ∧ (i 0).val < win0_3.index t (0 : Fin 3) * 2 + 2; rw [e0, ht]; omega
  | ⟨1, _⟩ => show win0_3.index t (1 : Fin 3) * 64 ≤ (i 1).val ∧ (i 1).val < win0_3.index t (1 : Fin 3) * 64 + 64; rw [e1]; omega
  | ⟨2, _⟩ => show win0_3.index t (2 : Fin 3) * 8192 ≤ (i 2).val ∧ (i 2).val < win0_3.index t (2 : Fin 3) * 8192 + 8192; rw [e2]; omega

/-- The region's array after the run. -/
theorem final (c : Dev nD) : (dats m 0 c).arrAt 3 cfg0.N = channelsFirst (m ((c : Thread nD τ).loc main_arg0)) (m ((c : Thread nD τ).loc main_arg1)) (m ((c : Thread nD τ).loc main_arg2)) :=
  (dats m 0 c).arrAt_eq_of_cover 3 _ (fun t _ => flushed_eq m c t) covered

/-- The result buffer after the lines that follow the region: the array transposed back to [batch, position, feature]. -/
theorem result_eq (c : Dev nD) :
    Pipeline.afterTail₀ cfgs (dats m) 0 (V0 m) [hostOps1] c main_v4 = Cert.Affine.linear (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = channelsFirst (m ((c : Thread nD τ).loc main_arg0)) (m ((c : Thread nD τ).loc main_arg1)) (m ((c : Thread nD τ).loc main_arg2)) :=
    (Pipeline.withArrays_arr spec0 launch0.win.arr_inj c _ _ 3).trans (final m c)
  rw [hw]
  funext i
  refine (transpose_apply _ _ _ i (ix3 (i 1) (i 2) (i 0)) fun b => ?_).trans rfl
  match b with
  | ⟨0, _⟩ => rfl
  | ⟨1, _⟩ => rfl
  | ⟨2, _⟩ => rfl

/-- The run, read: the result buffer ends at the layer's result of the arguments, and the arguments are unchanged. -/
theorem run : θ_run defs (onTc (τ := τ) (main (F := Ideal))) ⟨m, fun _ => 0, ρ⟩ fun r => ∀ c : Dev nD,
      r.2.mem ((c : Thread nD τ).loc main_v4) = Cert.Affine.linear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Arr

end
-- ==== Proof.PackedRow.lean ====
/-
  The reference's block, read at an index.

  The reference packs two 64-wide rows of the input into one 128-wide row and multiplies a [1024, 128] block `X` of
  packed rows by a [128, 128] matrix `M`, adding a [1, 128] row `c` broadcast down the block. At row `r` and column `n`
  the stored value is `∑ k, X[r, k] · M[k, n] + c[0, n]`: the product accumulates from the zero block and the sum runs
  over the one contracted axis. The one store covers the whole block.
-/
import proofs.«147220_g2000303496618400_pallasbulk_434_8_alg».proof.Proof.Gen.ReferenceIdeal.Frame
import Idealize.ShloMosaic.Lib.ValueIdx
import Idealize.ShloMosaic.Lib.Pipeline.Value
import Idealize.ShloMosaic.PureOps.Ideal.Laws

noncomputable section

namespace Cert.ReferenceIdeal.Packed

open Idealize.ShloMosaic Idealize.ShloMosaic.ValueIdx Cert.ReferenceIdeal Cert.ReferenceIdeal.Gen

/-! ## The operand indices of the product `X · M`, axis by axis -/

/-- The packed rows are read on their row axis at the output's row. -/
theorem lhs_axis0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl

/-- The packed rows are read on their column axis at the summation index. -/
theorem lhs_axis1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q

/-- The matrix is read on its row axis at the summation index. -/
theorem rhs_axis0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q

/-- The matrix is read on its column axis at the output's column. -/
theorem rhs_axis1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-! ## The product into the zero block -/

/-- `X · M` accumulated from zero, at row `r` and column `n`: the sum over the 128 packed columns of `X[r, k] · M[k, n]`. -/
theorem product_at (X : FVec Ideal S1024x128 .f32) (M : FVec Ideal S128x128 .f32) (r : Fin 1024) (n : Fin 128) :
    matmul dot_S1024x128_S128x128_S1024x128_1_0_0_1_n_n none X M (constant (F := Ideal) S1024x128 .f32 0x00000000#32) (ix2 r n)
      = ∑ k : Fin 128, X (ix2 r k) * M (ix2 k n) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r n) ((contrEquiv1 dot_S1024x128_S128x128_S1024x128_1_0_0_1_n_n 128 rfl rfl).symm k) = ix2 r k :=
    funext fun a => Fin.ext (by
      match a with
      | ⟨0, _⟩ => exact lhs_axis0 _ _
      | ⟨1, _⟩ => exact (lhs_axis1 _ _).trans hk)
  have er : dot_S1024x128_S128x128_S1024x128_1_0_0_1_n_n.rhsIdx (ix2 r n) ((contrEquiv1 dot_S1024x128_S128x128_S1024x128_1_0_0_1_n_n 128 rfl rfl).symm k) = ix2 k n :=
    funext fun a => Fin.ext (by
      match a with
      | ⟨0, _⟩ => exact (rhs_axis0 _ _).trans hk
      | ⟨1, _⟩ => exact rhs_axis1 _ _)
  rw [el, er]

/-! ## The stored block at an index -/

/-- What the body stores at (r, n): `∑ k, X[r, k] · M[k, n] + c[0, n]`. -/
theorem stored_at (x0 : Vec Ideal S1024x128 .f32) (x1 : Vec Ideal S128x128 .f32) (x2 : Vec Ideal S1x128 .f32)
    (r : Fin 1024) (n : Fin 128) :
    k0_pay1 (F := Ideal) x0 x1 x2 (ix2 r n)
      = (∑ k : Fin 128, x0 (ix2 r k) * x1 (ix2 k n)) + x2 (ix2 (0 : Fin 1) n) := by
  unfold k0_pay1
  rw [addf_apply, product_at]
  simp only [shapeCast_self]
  congr 1
  refine broadcastTo_apply x2 _ (ix2 r n) (ix2 (0 : Fin 1) n) fun a => ?_
  match a with
  | ⟨0, _⟩ => rfl
  | ⟨1, _⟩ => rfl

theorem zeros2 : (![0, 0] : Fin 2 → Nat) = fun _ => 0 := funext fun a => by fin_cases a <;> rfl

/-- One element of the block the body leaves: row `r`, column `n`. -/
def blockAt (x0 : Vec Ideal S1024x128 .f32) (x1 : Vec Ideal S128x128 .f32) (x2 : Vec Ideal S1x128 .f32)
    (r : Fin 1024) (n : Fin 128) : EReal :=
  (∑ k : Fin 128, x0 (ix2 r k) * x1 (ix2 k n)) + x2 (ix2 (0 : Fin 1) n)

/-- The one whole-block store leaves `blockAt` of the whole input blocks at every index. -/
theorem out_eq (x0 : Vec Ideal S1024x128 .f32) (x1 : Vec Ideal S128x128 .f32) (x2 : Vec Ideal S1x128 .f32) :
    out0_3 (F := Ideal) x0 x1 x2 = fun y => blockAt x0 x1 x2 (y 0) (y 1) := by
  unfold out0_3
  rw [View.canon_unit_zero zeros2]
  have e0 : View.ld x0 r0_0 = x0 := View.ld_unit_zero (S := S1024x128) zeros2 _ x0
  have e1 : View.ld x1 r0_1 = x1 := View.ld_unit_zero (S := S128x128) zeros2 _ x1
  have e2 : View.ld x2 r0_2 = x2 := View.ld_unit_zero (S := S1x128) zeros2 _ x2
  rw [e0, e1, e2]
  funext y
  obtain ⟨r, n, rfl⟩ : ∃ (r : Fin 1024) (n : Fin 128), y = ix2 r n := ⟨y 0, y 1, eq_ix2 y⟩
  exact stored_at x0 x1 x2 r n

end Cert.ReferenceIdeal.Packed

end
-- ==== Proof.BlockDiagonal.lean ====
/-
  A row times a block-diagonal matrix.

  The 128-wide packed row is two 64-wide rows side by side, and the [128, 128] matrix is `[[A, 0], [0, A]]`. A column of
  that matrix is `A`'s column in one half and zero in the other, so the sum over the 128 packed columns splits into its
  two halves, one of which is a sum of products with zero and vanishes (on the extended reals `x · 0 = 0` for every
  `x`, the infinities included), leaving the sum over one 64-wide row.
-/
import Mathlib.Data.EReal.Operations
import Mathlib.Algebra.BigOperators.Fin

namespace Cert.BlockDiagonal

open scoped BigOperators

/-- A sum over 128 indices is the sum over the lower 64 plus the sum over the upper 64. -/
theorem sum_halves (g : Fin 128 → EReal) :
    ∑ k : Fin 128, g k = ∑ d : Fin 64, g ⟨d.val, by omega⟩ + ∑ d : Fin 64, g ⟨64 + d.val, by omega⟩ :=
  Fin.sum_univ_add (a := 64) (b := 64) g

/-- Against a column that is `f` on the lower half and zero on the upper, only the row's lower half counts. -/
theorem dot_lower (X W : Fin 128 → EReal) (f : Fin 64 → EReal)
    (hlo : ∀ d : Fin 64, W ⟨d.val, by omega⟩ = f d) (hhi : ∀ d : Fin 64, W ⟨64 + d.val, by omega⟩ = 0) :
    ∑ k : Fin 128, X k * W k = ∑ d : Fin 64, f d * X ⟨d.val, by omega⟩ := by
  rw [sum_halves]
  simp only [hlo, hhi, mul_zero, Finset.sum_const_zero, add_zero]
  exact Finset.sum_congr rfl fun d _ => EReal.mul_comm _ _

/-- Against a column that is zero on the lower half and `f` on the upper, only the row's upper half counts. -/
theorem dot_upper (X W : Fin 128 → EReal) (f : Fin 64 → EReal)
    (hlo : ∀ d : Fin 64, W ⟨d.val, by omega⟩ = 0) (hhi : ∀ d : Fin 64, W ⟨64 + d.val, by omega⟩ = f d) :
    ∑ k : Fin 128, X k * W k = ∑ d : Fin 64, f d * X ⟨64 + d.val, by omega⟩ := by
  rw [sum_halves]
  simp only [hlo, hhi, mul_zero, Finset.sum_const_zero, zero_add]
  exact Finset.sum_congr rfl fun d _ => EReal.mul_comm _ _

end Cert.BlockDiagonal
-- ==== Proof.ReferenceArray.lean ====
/-
  The reference's result as one function of its arguments.

  Before the region the input is flattened to rows of 64 and packed two rows to a row of 128, the weights are
  transposed and placed twice on the diagonal of a [128, 128] matrix with zero blocks off it, and the bias is laid
  side by side with itself as a [1, 128] row. The grid walks the 131072 packed rows 1024 at a time: point `t` multiplies
  its block of rows by the whole matrix, adds the bias row and writes the block back, so every index of the output is
  covered by the point handling its rows.

  One element: packed row `R`, column `c`. The column of the matrix is the weights' row `c mod 64` in the half that `c`
  lies in and zero in the other half, so the sum over the 128 packed columns keeps only the 64 entries of the packed
  row that came from flat row `2R + c / 64`, and the zero half contributes nothing (`x · 0 = 0` on the extended reals).
  With the product's factors commuted that is the layer's result for that flat row at feature `c mod 64`: the region's
  array is the layer's result reshaped, and the two reshapes after the region undo the packing and the flattening.
-/
import proofs.«147220_g2000303496618400_pallasbulk_434_8_alg».proof.Proof.Gen.ReferenceIdeal.Frame
import proofs.«147220_g2000303496618400_pallasbulk_434_8_alg».proof.Proof.PackedRow
import proofs.«147220_g2000303496618400_pallasbulk_434_8_alg».proof.Proof.BlockDiagonal
import proofs.«147220_g2000303496618400_pallasbulk_434_8_alg».proof.Proof.Affine
import Idealize.ShloMosaic.Lib.Pipeline.Value
import Idealize.ShloMosaic.Lib.StableHlo.Run
import Idealize.ShloMosaic.Lib.Tactic

noncomputable section

namespace Cert.ReferenceIdeal.Arr

open Idealize.ShloMosaic Idealize.ShloMosaic.TcCoe Idealize.SL.Sem Idealize.ShloMosaic.ValueIdx
open Idealize.ShloMosaic.Pipeline (Dat)
open Cert.ReferenceIdeal Cert.ReferenceIdeal.Gen Cert.ReferenceIdeal.Packed

variable (m : (ℓ : Loc nD τ sig) → Buf (Elt Ideal) ℓ) (ρ : Dev nD → PrngReg)

/-! ## The arrays the region finds -/

/-- The input flattened to rows of 64 and then packed two rows to a row of 128. -/
theorem entry_rows (c : Dev nD) :
    (V m c main_v1 : S131072x128.Idx → EReal)
      = shapeCast S131072x128 (shapeCast S262144x64 (m ((c : Thread nD τ).loc main_arg0)) shapeCasts_S8192x32x64_S262144x64) shapeCasts_S262144x64_S131072x128 := by
  dsimp only [V, V0]
  simp only [hostOps0, hostOps0_1, hostOps0_2, List.flatten_cons, List.flatten_nil, List.append_nil, List.cons_append, List.nil_append]
  after_results
  rfl

/-- The weights transposed. -/
abbrev wT (c : Dev nD) : S64x64.Idx → EReal := transpose S64x64 [1, 0] (m ((c : Thread nD τ).loc main_arg1)) transposes_S64x64_S64x64_1_0
/-- A [64, 64] block of zeros. -/
abbrev zeroBlock : S64x64.Idx → EReal := broadcastInDim S64x64 ![] bcast_S_S64x64 (constant (F := Ideal) S_ .f32 0x00000000#32)

/-- The [128, 128] matrix: the transposed weights twice on the diagonal, zeros off it. -/
theorem entry_matrix (c : Dev nD) :
    (V m c main_v4 : S128x128.Idx → EReal)
      = concatenate S128x128 0
          [⟨S64x128, concatenate S64x128 1 [⟨S64x64, wT m c⟩, ⟨S64x64, zeroBlock⟩] concatenates_S64x64_S64x64_S64x128_d1⟩,
           ⟨S64x128, concatenate S64x128 1 [⟨S64x64, zeroBlock⟩, ⟨S64x64, wT m c⟩] concatenates_S64x64_S64x64_S64x128_d1⟩]
          concatenates_S64x128_S64x128_S128x128_d0 := by
  dsimp only [V, V0]
  simp only [hostOps0, hostOps0_1, hostOps0_2, List.flatten_cons, List.flatten_nil, List.append_nil, List.cons_append, List.nil_append]
  after_results
  rfl

/-- The bias twice, side by side, as a row. -/
theorem entry_bias_row (c : Dev nD) :
    (V m c main_v6 : S1x128.Idx → EReal)
      = shapeCast S1x128 (concatenate S128 0 [⟨S64, (m ((c : Thread nD τ).loc main_arg2))⟩, ⟨S64, (m ((c : Thread nD τ).loc main_arg2))⟩] concatenates_S64_S64_S128_d0) shapeCasts_S128_S1x128 := by
  dsimp only [V, V0]
  simp only [hostOps0, hostOps0_1, hostOps0_2, List.flatten_cons, List.flatten_nil, List.append_nil, List.cons_append, List.nil_append]
  after_results
  rfl

/-! ## Those arrays read at an index -/

/-- A packed-row element is the input element at the same row-major position. -/
theorem rows_at (c : Dev nD) (R : Fin 131072) (k : Fin 128) (n : Fin 8192) (s : Fin 32) (d : Fin 64)
    (h : (n.val * 32 + s.val) * 64 + d.val = R.val * 128 + k.val) :
    (V m c main_v1 : S131072x128.Idx → EReal) (ix2 R k) = ((m ((c : Thread nD τ).loc main_arg0)) : S8192x32x64.Idx → EReal) (ix3 n s d) := by
  rw [entry_rows]
  have hrow : n.val * 32 + s.val < 262144 := by have := n.isLt; have := s.isLt; omega
  refine (shapeCast_apply _ _ (ix2 R k) (ix2 (⟨n.val * 32 + s.val, hrow⟩ : Fin 262144) d) ?_).trans ?_
  · rw [Shape.rowMajor_val_two, Shape.rowMajor_val_two]
    exact h
  · refine shapeCast_apply _ _ _ (ix3 n s d) ?_
    rw [Shape.rowMajor_val_three, Shape.rowMajor_val_two]
    rfl

/-- The zero block is zero everywhere. -/
theorem zeroBlock_at (i : S64x64.Idx) : zeroBlock i = 0 :=
  (broadcastInDim_apply _ _ _ i ix0 (fun a => a.elim0)).trans Ideal.ofBits_zero_f32

/-- The transposed weights at (k, n) are the weights at (n, k). -/
theorem wT_at (c : Dev nD) (k n : Fin 64) : wT m c (ix2 k n) = ((m ((c : Thread nD τ).loc main_arg1)) : S64x64.Idx → EReal) (ix2 n k) :=
  transpose_apply _ _ _ (ix2 k n) (ix2 n k) (fun b => by
    match b with
    | ⟨0, _⟩ => rfl
    | ⟨1, _⟩ => rfl)

/-- Upper-left quadrant of the matrix: the transposed weights. -/
theorem matrix_ll (c : Dev nD) (k n : Fin 64) :
    (V m c main_v4 : S128x128.Idx → EReal) (ix2 (⟨k.val, by omega⟩ : Fin 128) (⟨n.val, by omega⟩ : Fin 128)) = ((m ((c : Thread nD τ).loc main_arg1)) : S64x64.Idx → EReal) (ix2 n k) := by
  rw [entry_matrix]
  refine (concatenate_pair_apply_left (t := S128x128) (s₁ := S64x128) (s₂ := S64x128) (0 : Fin 2) _ _ concatenates_S64x128_S64x128_S128x128_d0 (ix2 (⟨k.val, by omega⟩ : Fin 128) (⟨n.val, by omega⟩ : Fin 128)) rfl (ix2 k (⟨n.val, by omega⟩ : Fin 128)) (fun b => by
    match b with
    | ⟨0, _⟩ => rfl
    | ⟨1, _⟩ => rfl)).trans ?_
  refine (concatenate_pair_apply_left (t := S64x128) (s₁ := S64x64) (s₂ := S64x64) (1 : Fin 2) _ _ concatenates_S64x64_S64x64_S64x128_d1 (ix2 k (⟨n.val, by omega⟩ : Fin 128)) rfl (ix2 k n) (fun b => by
    match b with
    | ⟨0, _⟩ => rfl
    | ⟨1, _⟩ => rfl)).trans ?_
  exact wT_at m c k n

/-- Upper-right quadrant: zero. -/
theorem matrix_lu (c : Dev nD) (k n : Fin 64) :
    (V m c main_v4 : S128x128.Idx → EReal) (ix2 (⟨k.val, by omega⟩ : Fin 128) (⟨64 + n.val, by omega⟩ : Fin 128)) = (0 : EReal) := by
  rw [entry_matrix]
  refine (concatenate_pair_apply_left (t := S128x128) (s₁ := S64x128) (s₂ := S64x128) (0 : Fin 2) _ _ concatenates_S64x128_S64x128_S128x128_d0 (ix2 (⟨k.val, by omega⟩ : Fin 128) (⟨64 + n.val, by omega⟩ : Fin 128)) rfl (ix2 k (⟨64 + n.val, by omega⟩ : Fin 128)) (fun b => by
    match b with
    | ⟨0, _⟩ => rfl
    | ⟨1, _⟩ => rfl)).trans ?_
  refine (concatenate_pair_apply_right (t := S64x128) (s₁ := S64x64) (s₂ := S64x64) (1 : Fin 2) _ _ concatenates_S64x64_S64x64_S64x128_d1 (ix2 k (⟨64 + n.val, by omega⟩ : Fin 128)) rfl rfl (ix2 k n) (fun b hb => by
    match b with
    | ⟨0, _⟩ => rfl
    | ⟨1, _⟩ => exact absurd rfl hb) (by show n.val + 64 = 64 + n.val; omega)).trans ?_
  exact zeroBlock_at _

/-- Lower-left quadrant: zero. -/
theorem matrix_ul (c : Dev nD) (k n : Fin 64) :
    (V m c main_v4 : S128x128.Idx → EReal) (ix2 (⟨64 + k.val, by omega⟩ : Fin 128) (⟨n.val, by omega⟩ : Fin 128)) = (0 : EReal) := by
  rw [entry_matrix]
  refine (concatenate_pair_apply_right (t := S128x128) (s₁ := S64x128) (s₂ := S64x128) (0 : Fin 2) _ _ concatenates_S64x128_S64x128_S128x128_d0 (ix2 (⟨64 + k.val, by omega⟩ : Fin 128) (⟨n.val, by omega⟩ : Fin 128)) rfl rfl (ix2 k (⟨n.val, by omega⟩ : Fin 128)) (fun b hb => by
    match b with
    | ⟨0, _⟩ => exact absurd rfl hb
    | ⟨1, _⟩ => rfl) (by show k.val + 64 = 64 + k.val; omega)).trans ?_
  refine (concatenate_pair_apply_left (t := S64x128) (s₁ := S64x64) (s₂ := S64x64) (1 : Fin 2) _ _ concatenates_S64x64_S64x64_S64x128_d1 (ix2 k (⟨n.val, by omega⟩ : Fin 128)) rfl (ix2 k n) (fun b => by
    match b with
    | ⟨0, _⟩ => rfl
    | ⟨1, _⟩ => rfl)).trans ?_
  exact zeroBlock_at _

/-- Lower-right quadrant: the transposed weights again. -/
theorem matrix_uu (c : Dev nD) (k n : Fin 64) :
    (V m c main_v4 : S128x128.Idx → EReal) (ix2 (⟨64 + k.val, by omega⟩ : Fin 128) (⟨64 + n.val, by omega⟩ : Fin 128)) = ((m ((c : Thread nD τ).loc main_arg1)) : S64x64.Idx → EReal) (ix2 n k) := by
  rw [entry_matrix]
  refine (concatenate_pair_apply_right (t := S128x128) (s₁ := S64x128) (s₂ := S64x128) (0 : Fin 2) _ _ concatenates_S64x128_S64x128_S128x128_d0 (ix2 (⟨64 + k.val, by omega⟩ : Fin 128) (⟨64 + n.val, by omega⟩ : Fin 128)) rfl rfl (ix2 k (⟨64 + n.val, by omega⟩ : Fin 128)) (fun b hb => by
    match b with
    | ⟨0, _⟩ => exact absurd rfl hb
    | ⟨1, _⟩ => rfl) (by show k.val + 64 = 64 + k.val; omega)).trans ?_
  refine (concatenate_pair_apply_right (t := S64x128) (s₁ := S64x64) (s₂ := S64x64) (1 : Fin 2) _ _ concatenates_S64x64_S64x64_S64x128_d1 (ix2 k (⟨64 + n.val, by omega⟩ : Fin 128)) rfl rfl (ix2 k n) (fun b hb => by
    match b with
    | ⟨0, _⟩ => rfl
    | ⟨1, _⟩ => exact absurd rfl hb) (by show n.val + 64 = 64 + n.val; omega)).trans ?_
  exact wT_at m c k n

/-- The bias row's left half is the bias. -/
theorem bias_row_lo (c : Dev nD) (z : Fin 1) (n : Fin 64) :
    (V m c main_v6 : S1x128.Idx → EReal) (ix2 z (⟨n.val, by omega⟩ : Fin 128)) = ((m ((c : Thread nD τ).loc main_arg2)) : S64.Idx → EReal) (ix1 n) := by
  rw [entry_bias_row]
  refine (shapeCast_apply _ _ (ix2 z (⟨n.val, by omega⟩ : Fin 128)) (ix1 (⟨n.val, by omega⟩ : Fin 128)) ?_).trans ?_
  · rw [Shape.rowMajor_val_one, Shape.rowMajor_val_two]
    show n.val = z.val * 128 + n.val
    have := z.isLt
    omega
  · exact concatenate_pair_apply_left (t := S128) (s₁ := S64) (s₂ := S64) (0 : Fin 1) _ _ concatenates_S64_S64_S128_d0 (ix1 (⟨n.val, by omega⟩ : Fin 128)) rfl (ix1 n) (fun b => by
    match b with
    | ⟨0, _⟩ => rfl)

/-- The bias row's right half is the bias again. -/
theorem bias_row_hi (c : Dev nD) (z : Fin 1) (n : Fin 64) :
    (V m c main_v6 : S1x128.Idx → EReal) (ix2 z (⟨64 + n.val, by omega⟩ : Fin 128)) = ((m ((c : Thread nD τ).loc main_arg2)) : S64.Idx → EReal) (ix1 n) := by
  rw [entry_bias_row]
  refine (shapeCast_apply _ _ (ix2 z (⟨64 + n.val, by omega⟩ : Fin 128)) (ix1 (⟨64 + n.val, by omega⟩ : Fin 128)) ?_).trans ?_
  · rw [Shape.rowMajor_val_one, Shape.rowMajor_val_two]
    show 64 + n.val = z.val * 128 + (64 + n.val)
    have := z.isLt
    omega
  · exact concatenate_pair_apply_right (t := S128) (s₁ := S64) (s₂ := S64) (0 : Fin 1) _ _ concatenates_S64_S64_S128_d0 (ix1 (⟨64 + n.val, by omega⟩ : Fin 128)) rfl rfl (ix1 n) (fun b hb => by
      match b with
      | ⟨0, _⟩ => exact absurd rfl hb) (by show n.val + 64 = 64 + n.val; omega)

/-! ## The region's array, and one of its elements -/

/-- The packed rows the region reads, as an array of extended reals. -/
abbrev rowsArr (c : Dev nD) : S131072x128.Idx → EReal := V m c main_v1
/-- The [128, 128] matrix it reads. -/
abbrev matArr (c : Dev nD) : S128x128.Idx → EReal := V m c main_v4
/-- The [1, 128] bias row it reads. -/
abbrev biasArr (c : Dev nD) : S1x128.Idx → EReal := V m c main_v6

/-- What the region's array ends holding: the layer's result flattened to rows of 64 and packed two rows to a row. -/
def packedOut (x : S8192x32x64.Idx → EReal) (w : S64x64.Idx → EReal) (b : S64.Idx → EReal) : S131072x128.Idx → EReal :=
  shapeCast S131072x128 (shapeCast S262144x64 (Cert.Affine.linear x w b) shapeCasts_S8192x32x64_S262144x64)
    shapeCasts_S262144x64_S131072x128

/-- A packed element is the layer's result at the same row-major position. -/
theorem packedOut_at (x : S8192x32x64.Idx → EReal) (w : S64x64.Idx → EReal) (b : S64.Idx → EReal)
    (R : Fin 131072) (k : Fin 128) (n : Fin 8192) (s : Fin 32) (o : Fin 64)
    (h : (n.val * 32 + s.val) * 64 + o.val = R.val * 128 + k.val) :
    packedOut x w b (ix2 R k) = Cert.Affine.linearAt x w b n s o := by
  unfold packedOut
  have hrow : n.val * 32 + s.val < 262144 := by have := n.isLt; have := s.isLt; omega
  refine (shapeCast_apply _ _ (ix2 R k) (ix2 (⟨n.val * 32 + s.val, hrow⟩ : Fin 262144) o) ?_).trans ?_
  · rw [Shape.rowMajor_val_two, Shape.rowMajor_val_two]
    exact h
  · refine (shapeCast_apply _ _ _ (ix3 n s o) ?_).trans rfl
    rw [Shape.rowMajor_val_three, Shape.rowMajor_val_two]
    rfl

/-- A column in the left half: the packed row's first 64 entries meet the weights, the rest meet zeros. -/
theorem elem_lo (c : Dev nD) (R : Fin 131072) (o : Fin 64) (n : Fin 8192) (s : Fin 32)
    (h : n.val * 32 + s.val = 2 * R.val) :
    (∑ k : Fin 128, rowsArr m c (ix2 R k) * matArr m c (ix2 k (⟨o.val, by omega⟩ : Fin 128))) + biasArr m c (ix2 (0 : Fin 1) (⟨o.val, by omega⟩ : Fin 128))
      = Cert.Affine.linearAt (m ((c : Thread nD τ).loc main_arg0)) (m ((c : Thread nD τ).loc main_arg1)) (m ((c : Thread nD τ).loc main_arg2)) n s o := by
  unfold Cert.Affine.linearAt
  congr 1
  · refine (Cert.BlockDiagonal.dot_lower (fun k => rowsArr m c (ix2 R k)) (fun k => matArr m c (ix2 k (⟨o.val, by omega⟩ : Fin 128)))
      (fun d => ((m ((c : Thread nD τ).loc main_arg1)) : S64x64.Idx → EReal) (ix2 o d)) (fun d => matrix_ll m c d o) (fun d => matrix_ul m c d o)).trans ?_
    refine Finset.sum_congr rfl fun d _ => ?_
    congr 1
    exact rows_at m c R (⟨d.val, by omega⟩ : Fin 128) n s d (by show (n.val * 32 + s.val) * 64 + d.val = R.val * 128 + d.val; omega)
  · exact bias_row_lo m c 0 o

/-- A column in the right half: the packed row's last 64 entries meet the weights, the rest meet zeros. -/
theorem elem_hi (c : Dev nD) (R : Fin 131072) (o : Fin 64) (n : Fin 8192) (s : Fin 32)
    (h : n.val * 32 + s.val = 2 * R.val + 1) :
    (∑ k : Fin 128, rowsArr m c (ix2 R k) * matArr m c (ix2 k (⟨64 + o.val, by omega⟩ : Fin 128))) + biasArr m c (ix2 (0 : Fin 1) (⟨64 + o.val, by omega⟩ : Fin 128))
      = Cert.Affine.linearAt (m ((c : Thread nD τ).loc main_arg0)) (m ((c : Thread nD τ).loc main_arg1)) (m ((c : Thread nD τ).loc main_arg2)) n s o := by
  unfold Cert.Affine.linearAt
  congr 1
  · refine (Cert.BlockDiagonal.dot_upper (fun k => rowsArr m c (ix2 R k)) (fun k => matArr m c (ix2 k (⟨64 + o.val, by omega⟩ : Fin 128)))
      (fun d => ((m ((c : Thread nD τ).loc main_arg1)) : S64x64.Idx → EReal) (ix2 o d)) (fun d => matrix_lu m c d o) (fun d => matrix_uu m c d o)).trans ?_
    refine Finset.sum_congr rfl fun d _ => ?_
    congr 1
    exact rows_at m c R (⟨64 + d.val, by omega⟩ : Fin 128) n s d (by show (n.val * 32 + s.val) * 64 + d.val = R.val * 128 + (64 + d.val); omega)
  · exact bias_row_hi m c 0 o

/-- An element in the left half of a packed row is the packed result's. -/
theorem packed_elem_lo (c : Dev nD) (R : Fin 131072) (o : Fin 64) :
    (∑ k : Fin 128, rowsArr m c (ix2 R k) * matArr m c (ix2 k (⟨o.val, by omega⟩ : Fin 128))) + biasArr m c (ix2 (0 : Fin 1) (⟨o.val, by omega⟩ : Fin 128))
      = packedOut (m ((c : Thread nD τ).loc main_arg0)) (m ((c : Thread nD τ).loc main_arg1)) (m ((c : Thread nD τ).loc main_arg2)) (ix2 R (⟨o.val, by omega⟩ : Fin 128)) := by
  have hR := R.isLt
  obtain ⟨n, s, hns⟩ : ∃ (n : Fin 8192) (s : Fin 32), n.val * 32 + s.val = 2 * R.val :=
    ⟨⟨2 * R.val / 32, by omega⟩, ⟨2 * R.val % 32, by omega⟩, by show 2 * R.val / 32 * 32 + 2 * R.val % 32 = 2 * R.val; omega⟩
  rw [elem_lo m c R o n s hns]
  exact (packedOut_at _ _ _ R (⟨o.val, by omega⟩ : Fin 128) n s o (by show (n.val * 32 + s.val) * 64 + o.val = R.val * 128 + o.val; omega)).symm

/-- An element in the right half of a packed row is the packed result's. -/
theorem packed_elem_hi (c : Dev nD) (R : Fin 131072) (o : Fin 64) :
    (∑ k : Fin 128, rowsArr m c (ix2 R k) * matArr m c (ix2 k (⟨64 + o.val, by omega⟩ : Fin 128))) + biasArr m c (ix2 (0 : Fin 1) (⟨64 + o.val, by omega⟩ : Fin 128))
      = packedOut (m ((c : Thread nD τ).loc main_arg0)) (m ((c : Thread nD τ).loc main_arg1)) (m ((c : Thread nD τ).loc main_arg2)) (ix2 R (⟨64 + o.val, by omega⟩ : Fin 128)) := by
  have hR := R.isLt
  obtain ⟨n, s, hns⟩ : ∃ (n : Fin 8192) (s : Fin 32), n.val * 32 + s.val = 2 * R.val + 1 :=
    ⟨⟨(2 * R.val + 1) / 32, by omega⟩, ⟨(2 * R.val + 1) % 32, by omega⟩, by show (2 * R.val + 1) / 32 * 32 + (2 * R.val + 1) % 32 = 2 * R.val + 1; omega⟩
  rw [elem_hi m c R o n s hns]
  exact (packedOut_at _ _ _ R (⟨64 + o.val, by omega⟩ : Fin 128) n s o (by show (n.val * 32 + s.val) * 64 + o.val = R.val * 128 + (64 + o.val); omega)).symm

/-- Every element the region computes is the matching element of the packed result. -/
theorem packed_elem (c : Dev nD) (R : Fin 131072) (col : Fin 128) :
    (∑ k : Fin 128, rowsArr m c (ix2 R k) * matArr m c (ix2 k col)) + biasArr m c (ix2 (0 : Fin 1) col)
      = packedOut (m ((c : Thread nD τ).loc main_arg0)) (m ((c : Thread nD τ).loc main_arg1)) (m ((c : Thread nD τ).loc main_arg2)) (ix2 R col) := by
  by_cases hc : col.val < 64
  · have e : col = (⟨(⟨col.val, hc⟩ : Fin 64).val, Nat.lt_trans hc (by decide)⟩ : Fin 128) := Fin.ext rfl
    rw [e]
    exact packed_elem_lo m c R ⟨col.val, hc⟩
  · have hcol := col.isLt
    have ho : col.val - 64 < 64 := by omega
    have e : col = (⟨64 + (⟨col.val - 64, ho⟩ : Fin 64).val, by show 64 + (col.val - 64) < 128; omega⟩ : Fin 128) :=
      Fin.ext (by show col.val = 64 + (col.val - 64); omega)
    rw [e]
    exact packed_elem_hi m c R ⟨col.val - 64, ho⟩

/-! ## The windows' blocks as pieces of their arrays -/

/-- The index maps over the grid: the packed rows and the output move 1024 rows a point; the matrix and the bias row are whole. -/
theorem idx_facts : ∀ t : Fin cfg0.N,
    win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The input block at point `t` is packed rows `1024 t … 1024 t + 1023`. -/
theorem rows_block (c : Dev nD) (t : Fin cfg0.N) (r : Fin 1024) (k : Fin 128) (R : Fin 131072)
    (hR : R.val = 1024 * t.val + r.val) :
    (iblk m c 0 t : Vec Ideal S1024x128 .f32) (ix2 r k) = rowsArr m c (ix2 R k) := by
  obtain ⟨e0, e1, -⟩ := idx_facts t
  unfold iblk
  rw [View.read_apply]
  show V m c main_v1 _ = V m c main_v1 _
  congr 1
  funext a
  apply Fin.ext
  match a with
  | ⟨0, _⟩ => show win0_0.index t (0 : Fin 2) * 1024 + 1 * r.val = R.val; rw [e0, hR]; omega
  | ⟨1, _⟩ => show win0_0.index t (1 : Fin 2) * 128 + 1 * k.val = k.val; rw [e1]; omega

/-- The matrix's block is the whole matrix at every point. -/
theorem matrix_block (c : Dev nD) (t : Fin cfg0.N) (k n : Fin 128) :
    (iblk m c 1 t : Vec Ideal S128x128 .f32) (ix2 k n) = matArr m c (ix2 k n) := by
  obtain ⟨-, -, -, -, e0, e1, -⟩ := idx_facts t
  unfold iblk
  rw [View.read_apply]
  show V m c main_v4 _ = V m c main_v4 _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * n.val = n.val; rw [e1]; omega

/-- The bias row's block is the whole row at every point. -/
theorem bias_block (c : Dev nD) (t : Fin cfg0.N) (z : Fin 1) (n : Fin 128) :
    (iblk m c 2 t : Vec Ideal S1x128 .f32) (ix2 z n) = biasArr m c (ix2 z n) := by
  obtain ⟨-, -, -, -, -, -, e0, e1⟩ := idx_facts t
  unfold iblk
  rw [View.read_apply]
  show V m c main_v6 _ = V m c main_v6 _
  congr 1
  funext a
  apply Fin.ext
  match a with
  | ⟨0, _⟩ => show win0_2.index t (0 : Fin 2) * 1 + 1 * z.val = z.val; rw [e0]; omega
  | ⟨1, _⟩ => show win0_2.index t (1 : Fin 2) * 128 + 1 * n.val = n.val; rw [e1]; omega

/-! ## What a grid point writes back, and the array after the run -/

/-- Element (r, n) of the block point `t` leaves is the packed result at row `1024 t + r`, column `n`. -/
theorem point_elem (c : Dev nD) (t : Fin cfg0.N) (r : Fin 1024) (n : Fin 128) (R : Fin 131072)
    (hR : R.val = 1024 * t.val + r.val) :
    blockAt (iblk m c 0 t) (iblk m c 1 t) (iblk m c 2 t) r n = packedOut (m ((c : Thread nD τ).loc main_arg0)) (m ((c : Thread nD τ).loc main_arg1)) (m ((c : Thread nD τ).loc main_arg2)) (ix2 R n) := by
  unfold blockAt
  rw [← packed_elem m c R n]
  refine congrArg₂ (· + ·) (Finset.sum_congr rfl fun k _ => ?_) (bias_block m c t 0 n)
  exact congrArg₂ (· * ·) (rows_block m c t r k R hR) (matrix_block m c t k n)

/-- What point `t` writes back is its block of the packed result. -/
theorem flushed_eq (c : Dev nD) (t : Fin cfg0.N) :
    (dats m 0 c).flushed 3 t = ((cfg0.win 3).blk t).view.read (Elt Ideal) (packedOut (m ((c : Thread nD τ).loc main_arg0)) (m ((c : Thread nD τ).loc main_arg1)) (m ((c : Thread nD τ).loc main_arg2))) := by
  show (cfg0.win 3).cut (grid0.coords t) ((dats m 0 c).after 3 t) = _
  rw [after0_3, out_eq]
  obtain ⟨-, -, e0, e1, -⟩ := idx_facts t
  have ht : t.val < 128 := lt_of_lt_of_eq t.isLt N_0
  funext j
  have hj0 : (j 0).val < 1024 := (j 0).isLt
  have hj1 : (j 1).val < 128 := (j 1).isLt
  have hemb : ((cfg0.win 3).blk t).view.emb j
      = ix2 (⟨1024 * t.val + (j 0).val, by omega⟩ : Fin 131072) (⟨(j 1).val, hj1⟩ : Fin 128) :=
    funext fun a => Fin.ext (by
      match a with
      | ⟨0, _⟩ => show win0_3.index t (0 : Fin 2) * 1024 + 1 * (j 0).val = 1024 * t.val + (j 0).val; rw [e0]; omega
      | ⟨1, _⟩ => show win0_3.index t (1 : Fin 2) * 128 + 1 * (j 1).val = (j 1).val; rw [e1]; omega)
  show blockAt (iblk m c 0 t) (iblk m c 1 t) (iblk m c 2 t) (j 0) (j 1) = packedOut _ _ _ (((cfg0.win 3).blk t).view.emb j)
  rw [hemb]
  exact point_elem m c t (j 0) (j 1) (⟨1024 * t.val + (j 0).val, by omega⟩ : Fin 131072) rfl

/-- An index is in point `t`'s output block iff each coordinate is in the block's range on its axis. -/
theorem mem_block (t : Fin cfg0.N) (i : S131072x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v7).slice (win0_3.rect t)).set ↔ _
  rw [View.set_slice_whole, Rect.mem_set_unit]
  exact Iff.rfl

/-- Every index of the array lies in the block of the point that handles its 1024 rows. -/
theorem covered (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  have hN : cfg0.N = 128 := N_0
  obtain ⟨t, ht⟩ : ∃ t : Fin cfg0.N, t.val = (i 0).val / 1024 := ⟨⟨(i 0).val / 1024, by rw [hN]; omega⟩, rfl⟩
  obtain ⟨-, -, e0, e1, -⟩ := idx_facts t
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; rw [e0, ht]; omega
  | ⟨1, _⟩ => show win0_3.index t (1 : Fin 2) * 128 ≤ (i 1).val ∧ (i 1).val < win0_3.index t (1 : Fin 2) * 128 + 128; rw [e1]; omega

/-- The region's array after the run. -/
theorem final (c : Dev nD) : (dats m 0 c).arrAt 3 cfg0.N = packedOut (m ((c : Thread nD τ).loc main_arg0)) (m ((c : Thread nD τ).loc main_arg1)) (m ((c : Thread nD τ).loc main_arg2)) :=
  (dats m 0 c).arrAt_eq_of_cover 3 _ (fun t _ => flushed_eq m c t) covered

/-- The result buffer after the lines that follow the region: the packed result unpacked and unflattened. -/
theorem result_eq (c : Dev nD) :
    Pipeline.afterTail₀ cfgs (dats m) 0 (V0 m) [hostOps1] c main_v9 = Cert.Affine.linear (m ((c : Thread nD τ).loc main_arg0)) (m ((c : Thread nD τ).loc main_arg1)) (m ((c : Thread nD τ).loc main_arg2)) := by
  unfold Pipeline.afterTail₀
  show StableHlo.after hostOps1 _ (Proc.devRef .tc main_v9) = _
  after_results
  show shapeCast S8192x32x64 (shapeCast S262144x64
      (Pipeline.withArrays (cfgs 0).spec c (V0 m c) (fun w => (dats m 0 c).arrAt w (cfgs 0).N) (Proc.devRef .tc main_v7))
      shapeCasts_S131072x128_S262144x64) shapeCasts_S262144x64_S8192x32x64 = _
  have hw : Pipeline.withArrays (cfgs 0).spec c (V0 m c) (fun w => (dats m 0 c).arrAt w (cfgs 0).N) (Proc.devRef .tc main_v7)
      = packedOut (m ((c : Thread nD τ).loc main_arg0)) (m ((c : Thread nD τ).loc main_arg1)) (m ((c : Thread nD τ).loc main_arg2)) :=
    (Pipeline.withArrays_arr spec0 launch0.win.arr_inj c _ _ 3).trans (final m c)
  rw [hw]
  unfold packedOut
  rw [shapeCast_shapeCast (shapeCast S262144x64 (Cert.Affine.linear (m ((c : Thread nD τ).loc main_arg0)) (m ((c : Thread nD τ).loc main_arg1)) (m ((c : Thread nD τ).loc main_arg2))) shapeCasts_S8192x32x64_S262144x64)
      shapeCasts_S262144x64_S131072x128 shapeCasts_S131072x128_S262144x64]
  exact shapeCast_shapeCast _ shapeCasts_S8192x32x64_S262144x64 shapeCasts_S262144x64_S8192x32x64

/-- The run, read: the result buffer ends at the layer's result of the arguments, and the arguments are unchanged. -/
theorem run : θ_run defs (onTc (τ := τ) (main (F := Ideal))) ⟨m, fun _ => 0, ρ⟩ fun r => ∀ c : Dev nD,
      r.2.mem ((c : Thread nD τ).loc main_v9) = Cert.Affine.linear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v9 (Pipeline.mem_restRefs_of main_v9 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.ReferenceIdeal.Arr

end
-- ==== Proof.lean ====
/-
  A 64 → 64 linear layer, computed two ways, is one function.

  The kernel moves the feature axis off the lanes: it transposes the input to [position, feature, batch], multiplies the
  weights into each [64, 8192] plane from the left, adds the bias down the rows, and transposes back. The reference
  packs two rows of the flattened input into one 128-wide row and multiplies by the block-diagonal matrix
  `[[Wᵀ, 0], [0, Wᵀ]]`, adding the bias laid side by side with itself, then unpacks. Read over the extended reals, where a
  change of float format is the identity and a product accumulates exactly, both end holding
  `y[n, s, o] = ∑ d, w[o, d] · x[n, s, d] + b[o]`: for the kernel the transposes only rename indices
  (Proof/KernelPlane, Proof/KernelBlock, Proof/KernelArray); for the reference the zero blocks drop out of the sum and
  the factors commute (Proof/PackedRow, Proof/BlockDiagonal, Proof/ReferenceArray). No step needs the inputs to be
  finite. Each program's frame is its generated one, and the idealization rewrote nothing.
-/
import proofs.«147220_g2000303496618400_pallasbulk_434_8_alg».proof.Defs
import proofs.«147220_g2000303496618400_pallasbulk_434_8_alg».proof.Proof.Gen.Kernel
import proofs.«147220_g2000303496618400_pallasbulk_434_8_alg».proof.Proof.Gen.Kernel.Skeleton
import proofs.«147220_g2000303496618400_pallasbulk_434_8_alg».proof.Proof.Gen.Kernel.Launch
import proofs.«147220_g2000303496618400_pallasbulk_434_8_alg».proof.Proof.Gen.Kernel.Points
import proofs.«147220_g2000303496618400_pallasbulk_434_8_alg».proof.Proof.Gen.Kernel.Frame
import proofs.«147220_g2000303496618400_pallasbulk_434_8_alg».proof.Proof.Gen.KernelIdeal
import proofs.«147220_g2000303496618400_pallasbulk_434_8_alg».proof.Proof.Gen.KernelIdeal.Skeleton
import proofs.«147220_g2000303496618400_pallasbulk_434_8_alg».proof.Proof.Gen.KernelIdeal.Launch
import proofs.«147220_g2000303496618400_pallasbulk_434_8_alg».proof.Proof.Gen.KernelIdeal.Points
import proofs.«147220_g2000303496618400_pallasbulk_434_8_alg».proof.Proof.Gen.KernelIdeal.Frame
import proofs.«147220_g2000303496618400_pallasbulk_434_8_alg».proof.Proof.Gen.ReferenceIdeal
import proofs.«147220_g2000303496618400_pallasbulk_434_8_alg».proof.Proof.Gen.ReferenceIdeal.Skeleton
import proofs.«147220_g2000303496618400_pallasbulk_434_8_alg».proof.Proof.Gen.ReferenceIdeal.Launch
import proofs.«147220_g2000303496618400_pallasbulk_434_8_alg».proof.Proof.Gen.ReferenceIdeal.Points
import proofs.«147220_g2000303496618400_pallasbulk_434_8_alg».proof.Proof.Gen.ReferenceIdeal.Frame
import proofs.«147220_g2000303496618400_pallasbulk_434_8_alg».proof.Proof.Gen.Pre_finite_inputs
import proofs.«147220_g2000303496618400_pallasbulk_434_8_alg».proof.Proof.KernelArray
import proofs.«147220_g2000303496618400_pallasbulk_434_8_alg».proof.Proof.ReferenceArray
import Idealize.ShloMosaic.Adequacy
import Idealize.ShloMosaic.Init

noncomputable section

namespace Cert.Proof

open Idealize.ShloMosaic Idealize.SL.Sem Cert.Kernel

/-- Both idealized programs end with the result buffer at the layer's result of their (agreeing) arguments. -/
theorem algebraic : Cert.algebraic_KernelIdeal_ReferenceIdeal := by
  intro m ρ m' ρ' _ hagree
  refine ⟨fun c => Cert.Affine.linear (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Arr.run m ρ, ?_⟩
  refine (θ_run Cert.ReferenceIdeal.defs _ _).mono (fun _ h c => ?_) (Cert.ReferenceIdeal.Arr.run m' ρ')
  obtain ⟨h0, h1, h2, h3⟩ := h c
  refine ⟨h0.trans ?_, h1, h2, h3⟩
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
